-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x1024 : Shape := ⟨2, ![8192, 1024]⟩
abbrev S256x1024 : Shape := ⟨2, ![256, 1024]⟩
abbrev S1024x1024 : Shape := ⟨2, ![1024, 1024]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S256x1024 .f32) (main_arg6 : FVec F S1024x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S256x1024 .f32 := Host.absf main_arg5
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8192x256 .f32) (main_arg1 : FVec F S8192x1024 .f32) (main_arg2 : IVec S8192x1024 32) (main_arg3 : FVec F S8192x1024 .f32) (main_arg4 : FVec F S8192x1024 .f32) (main_arg5 : FVec F S256x1024 .f32) (main_arg6 : FVec F S1024x1024 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg4
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg5 main_arg6 main_v13 main_v16
-- ==== Kernel.lean ====
abbrev S8192x256 : Shape := ⟨2, ![8192, 256]⟩
abbrev S8192x1024 : Shape := ⟨2, ![8192, 1024]⟩
abbrev S256x1024 : Shape := ⟨2, ![256, 1024]⟩
abbrev S1024x1024 : Shape := ⟨2, ![1024, 1024]⟩
abbrev S_ : Shape := ⟨0, ![]⟩
abbrev S256x256 : Shape := ⟨2, ![256, 256]⟩

abbrev nBuf : Space → Nat
  | .hbm => 21
  | .vmem => 20
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .i32⟩
  | .hbm, ⟨3, _⟩ => ⟨S8192x1024, .f32⟩
  | .hbm, ⟨4, _⟩ => ⟨S8192x1024, .f32⟩
  | .hbm, ⟨5, _⟩ => ⟨S256x1024, .f32⟩
  | .hbm, ⟨6, _⟩ => ⟨S1024x1024, .f32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S_, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S8192x1024, .f32⟩
  | .hbm, ⟨18, _⟩ => ⟨S8192x1024, .f32⟩
  | .hbm, ⟨19, _⟩ => ⟨S8192x1024, .i32⟩
  | .hbm, ⟨20, _⟩ => ⟨S8192x1024, .f32⟩
  | .local _ .vmem, ⟨0, _⟩ => ⟨S256x256, .f32⟩
  | .local _ .vmem, ⟨1, _⟩ => ⟨S256x256, .f32⟩
  | .local _ .vmem, ⟨2, _⟩ => ⟨S256x1024, .f32⟩
  | .local _ .vmem, ⟨3, _⟩ => ⟨S256x1024, .f32⟩
  | .local _ .vmem, ⟨4, _⟩ => ⟨S256x1024, .i32⟩
  | .local _ .vmem, ⟨5, _⟩ => ⟨S256x1024, .i32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1024x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .i32⟩
  | .local _ .vmem, ⟨17, _⟩ => ⟨S256x1024, .i32⟩
  | .local _ .vmem, ⟨18, _⟩ => ⟨S256x1024, .f32⟩
  | .local _ .vmem, ⟨19, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S1024x1024 : S_.BroadcastsInDim S1024x1024 (![] : Fin 0 → Fin S1024x1024.rank)
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  dot_S256x256_S256x1024_S256x1024_1_0_0_1_n_n_wf : DotDims.WF S256x256 S256x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S8192x256.size a
  hwx0_0 : ∀ i : grid0.Coords, EltTy.bits .f32 = 32 ∨ (Rect.block (s := S8192x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .i32 = 32 ∨ (Rect.block (s := S8192x1024) S256x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .f32 = 32 ∨ (Rect.block (s := S256x1024) S256x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .i32 = 32 ∨ (Rect.block (s := S8192x1024) S256x1024.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_3) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x1024 : Shape := ⟨2, ![8192, 1024]⟩
abbrev S256x1024 : Shape := ⟨2, ![256, 1024]⟩
abbrev S1024x1024 : Shape := ⟨2, ![1024, 1024]⟩
abbrev S_ : Shape := ⟨0, ![]⟩

abbrev nBuf : Space → Nat
  | .hbm => 110
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .i32⟩
  | .hbm, ⟨3, _⟩ => ⟨S8192x1024, .f32⟩
  | .hbm, ⟨4, _⟩ => ⟨S8192x1024, .f32⟩
  | .hbm, ⟨5, _⟩ => ⟨S256x1024, .f32⟩
  | .hbm, ⟨6, _⟩ => ⟨S1024x1024, .f32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S_, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .i1⟩
  | .hbm, ⟨57, _⟩ => ⟨S_, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .i32⟩
  | .hbm, ⟨77, _⟩ => ⟨S8192x1024, .i32⟩
  | .hbm, ⟨78, _⟩ => ⟨S8192x1024, .i1⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .i1⟩
  | .hbm, ⟨89, _⟩ => ⟨S8192x1024, .f32⟩
  | .hbm, ⟨90, _⟩ => ⟨S_, .f32⟩
  | .hbm, ⟨91, _⟩ => ⟨S_, .f32⟩
  | .hbm, ⟨92, _⟩ => ⟨S8192x1024, .f32⟩
  | .hbm, ⟨93, _⟩ => ⟨S8192x1024, .f32⟩
  | .hbm, ⟨94, _⟩ => ⟨S_, .i32⟩
  | .hbm, ⟨95, _⟩ => ⟨S8192x1024, .i32⟩
  | .hbm, ⟨96, _⟩ => ⟨S8192x1024, .i32⟩
  | .hbm, ⟨97, _⟩ => ⟨S_, .f32⟩
  | .hbm, ⟨98, _⟩ => ⟨S8192x1024, .f32⟩
  | .hbm, ⟨99, _⟩ => ⟨S8192x1024, .f32⟩
  | .hbm, ⟨100, _⟩ => ⟨S8192x1024, .i32⟩
  | .hbm, ⟨101, _⟩ => ⟨S8192x1024, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S8192x1024, .i32⟩
  | .hbm, ⟨106, _⟩ => ⟨S8192x1024, .i32⟩
  | .hbm, ⟨107, _⟩ => ⟨S_, .i32⟩
  | .hbm, ⟨108, _⟩ => ⟨S8192x1024, .i32⟩
  | .hbm, ⟨109, _⟩ => ⟨S8192x1024, .i32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_cst_8 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_v30 : Ref sig .tc := ⟨.hbm, 56, rfl⟩
abbrev main_cst_10 : Ref sig .tc := ⟨.hbm, 57, rfl⟩
abbrev main_call2_v0 : Ref sig .tc := ⟨.hbm, 58, rfl⟩
abbrev main_call2_v1 : Ref sig .tc := ⟨.hbm, 59, rfl⟩
abbrev main_v31 : Ref sig .tc := ⟨.hbm, 60, rfl⟩
abbrev main_cst_11 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_v35 : Ref sig .tc := ⟨.hbm, 66, rfl⟩
abbrev main_v36 : Ref sig .tc := ⟨.hbm, 67, rfl⟩
abbrev main_cst_13 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_14 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_15 : Ref sig .tc := ⟨.hbm, 76, rfl⟩
abbrev main_v43 : Ref sig .tc := ⟨.hbm, 77, rfl⟩
abbrev main_v44 : Ref sig .tc := ⟨.hbm, 78, rfl⟩
abbrev main_cst_16 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_17 : Ref sig .tc := ⟨.hbm, 83, rfl⟩
abbrev main_v48 : Ref sig .tc := ⟨.hbm, 84, rfl⟩
abbrev main_v49 : Ref sig .tc := ⟨.hbm, 85, rfl⟩
abbrev main_cst_18 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_19 : Ref sig .tc := ⟨.hbm, 90, rfl⟩
abbrev main_call3_v0 : Ref sig .tc := ⟨.hbm, 91, rfl⟩
abbrev main_call3_v1 : Ref sig .tc := ⟨.hbm, 92, rfl⟩
abbrev main_v53 : Ref sig .tc := ⟨.hbm, 93, rfl⟩
abbrev main_c_20 : Ref sig .tc := ⟨.hbm, 94, rfl⟩
abbrev main_v54 : Ref sig .tc := ⟨.hbm, 95, rfl⟩
abbrev main_v55 : Ref sig .tc := ⟨.hbm, 96, rfl⟩
abbrev main_cst_21 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_22 : Ref sig .tc := ⟨.hbm, 102, rfl⟩
abbrev main_c_23 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v60 : Ref sig .tc := ⟨.hbm, 109, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S_S8192x1024 : S_.BroadcastsInDim S8192x1024 (![] : Fin 0 → Fin S8192x1024.rank)
  dot_S8192x256_S256x1024_S8192x1024_1_0_0_1_n_n_wf : DotDims.WF S8192x256 S256x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-! # One step of an adaptive exponential integrate-and-fire layer, entry by entry

A batch of 8192 rows of 1024 neurons. Each neuron carries a membrane potential `v`, an adaptation current `w`,
a refractory counter `r` and the spike `z` it emitted on the step before. The step first forms the synaptic
current, a row of 256 inputs through the input weights plus the row of 1024 previous spikes through the
recurrent weights with the diagonal (a neuron onto itself) set to zero; then, neuron by neuron,

* the potential leaks toward rest, is pushed by the clipped exponential `exp ((v - thr) / 2)` and by the
  current less the adaptation over the capacitance, and is set to the reset value where the neuron had spiked;
* the adaptation decays, follows the potential's distance from rest, and jumps by a fixed amount per spike;
* the neuron spikes when the new potential is above threshold, unless it is refractory;
* the refractory counter is lowered by one, raised by five on a spike, and kept in `[0, 5]`.

Everything is on the extended reals; a float literal is the value its word denotes and is never evaluated:
the same words occur wherever this function is compared with a program. -/

noncomputable section

open scoped BigOperators

namespace Cert.Neuron

open Idealize.ShloMosaic Idealize.ShloMosaic.ValueIdx

/-- The extended real an f32 word denotes. -/
abbrev lit (b : BitVec 32) : EReal := Ideal.ofBits .f32 b

/-! ## One neuron -/

/-- The exponential drive `exp ((v - thr) / 2)`, held between `-10⁶` and `281`. -/
def drive (v : EReal) : EReal :=
  min (lit 0x438C8000#32) (max (lit 0xC9742400#32) (Ideal.exp (Ideal.div (v - lit 0xC249999A#32) (lit 0x40000000#32))))

/-- The potential one step on where the neuron had not spiked: `v - g (v - rest) + 2 g · drive v + net · 1 / 281`,
    `net` the synaptic current less the adaptation current. -/
def leak (v net : EReal) : EReal :=
  ((v - lit 0x3DDAA5CF#32 * (v - lit 0xC28D3333#32)) + lit 0x3E5AA5CF#32 * drive v)
    + Ideal.div (net * lit 0x3F800000#32) (lit 0x438C8000#32)

/-- The new potential: the reset value where the previous spike `z` is above one half, else `leak`. -/
def potential (v z net : EReal) : EReal :=
  Scalar.select (Ideal.cmp .ogt z (lit 0x3F000000#32)) (lit 0xC28D3333#32) (leak v net)

/-- The new adaptation current: `w - w / 144 + (v - rest) / 36 + 0.0805 z`, each factor the f32 literal. -/
def adaptation (v w z : EReal) : EReal :=
  ((w - lit 0x3BE38E39#32 * w) + lit 0x3CE38E39#32 * (v - lit 0xC28D3333#32)) + lit 0x3DA4DD2F#32 * z

/-- Whether the potential `p` is above threshold: `-(thr - p) / (thr - rest) > 0`, as one bit. -/
def crossed (p : EReal) : BitVec 1 :=
  Ideal.cmp .ogt (Ideal.div (-(lit 0xC249999A#32 - p)) (lit 0x41A1999A#32)) (lit 0x00000000#32)

/-- The new spike: zero while the counter `r` is positive, else the crossing bit as a number. -/
def spike (r : BitVec 32) (p : EReal) : EReal :=
  Scalar.select (IntOp.cmpi .sgt r 0#32) (lit 0x00000000#32) (((crossed p).toNat : ℝ) : EReal)

/-- The new refractory counter: `r - 1 + 5 s` for the new spike `s`, kept between 0 and 5. -/
def refractory (r : BitVec 32) (s : EReal) : BitVec 32 :=
  IntOp.minsi 5#32 (IntOp.maxsi 0#32 (IntOp.addi (IntOp.subi r 1#32) (Ideal.fptosi 32 (s * lit 0x40A00000#32))))

/-! ## The layer -/

abbrev SIn : Shape := ⟨2, ![8192, 256]⟩
abbrev SLayer : Shape := ⟨2, ![8192, 1024]⟩
abbrev SWin : Shape := ⟨2, ![256, 1024]⟩
abbrev SWrec : Shape := ⟨2, ![1024, 1024]⟩

/-- The recurrent weights with the diagonal set to zero: entry `(a, b)` is zero where the two coordinates, as
    32-bit words, are equal. -/
def noSelf (wrec : SWrec.Idx → EReal) : SWrec.Idx → EReal := fun i =>
  Scalar.select (IntOp.cmpi .eq (IntOp.addi (BitVec.ofNat 32 (i 0).val) 0#32) (BitVec.ofNat 32 (i 1).val))
    (lit 0x00000000#32) (wrec i)

/-- The synaptic current of neuron `i 1` in row `i 0`: the row's inputs through the input weights plus the row's
    previous spikes through the recurrent weights `rec`. -/
def current (x : SIn.Idx → EReal) (win : SWin.Idx → EReal) (z : SLayer.Idx → EReal) (rec : SWrec.Idx → EReal) :
    SLayer.Idx → EReal := fun i =>
  (∑ k : Fin 256, x (ix2 (i 0) k) * win (ix2 k (i 1))) + ∑ k : Fin 1024, z (ix2 (i 0) k) * rec (ix2 k (i 1))

/-- The new potentials. -/
def newV (x : SIn.Idx → EReal) (v w z : SLayer.Idx → EReal) (win : SWin.Idx → EReal) (rec : SWrec.Idx → EReal) :
    SLayer.Idx → EReal := fun i => potential (v i) (z i) (current x win z rec i - w i)

/-- The new spikes. -/
def newZ (x : SIn.Idx → EReal) (v : SLayer.Idx → EReal) (r : SLayer.Idx → BitVec 32) (w z : SLayer.Idx → EReal)
    (win : SWin.Idx → EReal) (rec : SWrec.Idx → EReal) : SLayer.Idx → EReal :=
  fun i => spike (r i) (newV x v w z win rec i)

/-- The new refractory counters. -/
def newR (x : SIn.Idx → EReal) (v : SLayer.Idx → EReal) (r : SLayer.Idx → BitVec 32) (w z : SLayer.Idx → EReal)
    (win : SWin.Idx → EReal) (rec : SWrec.Idx → EReal) : SLayer.Idx → BitVec 32 :=
  fun i => refractory (r i) (newZ x v r w z win rec i)

/-- The new adaptation currents. -/
def newW (v w z : SLayer.Idx → EReal) : SLayer.Idx → EReal := fun i => adaptation (v i) (w i) (z i)

/-! ## Two small facts that join the two programs' spellings -/

/-- Subtracting from zero is negating. -/
theorem zero_sub_eq_neg (x : EReal) : lit 0x00000000#32 - x = -x := by
  rw [show lit 0x00000000#32 = 0 from Ideal.ofBits_zero_f32, zero_sub]

/-- A bit widened to 32 bits and read signed is the bit read unsigned. -/
theorem toInt_setWidth_bit (b : BitVec 1) : ((b.setWidth 32).toInt : ℝ) = (b.toNat : ℝ) := by
  have h : ∀ b : BitVec 1, (b.setWidth 32).toInt = (b.toNat : Int) := by decide
  rw [h b]; simp

end Cert.Neuron

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.Tile.lean ====
import proofs.«125204_j80693845557792_1_alg».proof.Proof.Gen.KernelIdeal.Skeleton
import proofs.«125204_j80693845557792_1_alg».proof.Proof.Spec
import proofs.«125204_j80693845557792_1_alg».proof.Proof.LibPlainDot
import Idealize.ShloMosaic.Lib.Pipeline.Value

/-! # What the kernel body computes on one tile of 256 rows, entry by entry

The body loads the tile's rows of the inputs, potentials, counters, adaptation currents and previous spikes and
the two whole weight matrices, and stores four tiles. Read at an entry `y` of a tile, at the extended reals:
the two matrix products into a zero accumulator are plain sums over the contracted axis (the change to bf16
before them is the identity), and everything after them acts on entry `y` alone, so each stored value is the
one-neuron function of `Cert.Neuron` at the loaded values' entries. -/

noncomputable section

open scoped BigOperators

namespace Cert.KernelIdeal.Tile

open Cert.KernelIdeal Cert.KernelIdeal.Gen Cert.Neuron Idealize.ShloMosaic Idealize.ShloMosaic.ValueIdx

/-- The synaptic current inside a tile: row `y 0` of the tile's inputs through column `y 1` of the input weights
    plus row `y 0` of the tile's previous spikes through column `y 1` of the recurrent weights. -/
def current (x : S256x256.Idx → EReal) (win : S256x1024.Idx → EReal) (z : S256x1024.Idx → EReal)
    (rec : S1024x1024.Idx → EReal) : S256x1024.Idx → EReal := fun y =>
  (∑ k : Fin 256, x (ix2 (y 0) k) * win (ix2 k (y 1))) + ∑ k : Fin 1024, z (ix2 (y 0) k) * rec (ix2 k (y 1))

/-- The body's two products added, less the adaptation current: the net current at an entry. -/
theorem net_apply (x : Vec Ideal S256x256 .f32) (win z : Vec Ideal S256x1024 .f32) (rec : Vec Ideal S1024x1024 .f32)
    (w : Vec Ideal S256x1024 .f32) (y : S256x1024.Idx) :
    k0_pay3 (F := Ideal) x win z rec w y = current x win z rec y - w y := by
  unfold k0_pay3 current
  simp only [shapeCast_self]
  show (FloatOps.matmul (F := Ideal) dot_S256x256_S256x1024_S256x1024_1_0_0_1_n_n none _ _ (constant (F := Ideal) S256x1024 .f32 0x00000000#32) y
      + FloatOps.matmul (F := Ideal) dot_S256x1024_S1024x1024_S256x1024_1_0_0_1_n_n none _ _ (constant (F := Ideal) S256x1024 .f32 0x00000000#32) y) - w y = _
  rw [Cert.PlainDot.matmul_zero_apply dot_S256x256_S256x1024_S256x1024_1_0_0_1_n_n rfl,
    Cert.PlainDot.matmul_zero_apply dot_S256x1024_S1024x1024_S256x1024_1_0_0_1_n_n rfl]
  rfl

/-- The stored potential at an entry, for any net current `n`. -/
theorem potential_of (v z n : Vec Ideal S256x1024 .f32) (y : S256x1024.Idx) :
    k0_pay4 (F := Ideal) z (k0_pay2 v) n y = potential (v y) (z y) (n y) := rfl

/-- The stored adaptation current at an entry. -/
theorem adaptation_apply (v w z : Vec Ideal S256x1024 .f32) (y : S256x1024.Idx) :
    k0_pay5 (F := Ideal) v w z y = adaptation (v y) (w y) (z y) := rfl

/-- The stored spike at an entry: the body negates by subtracting from zero and converts the crossing bit through a
    32-bit word read signed; both are the plain spellings (`zero_sub_eq_neg`, `toInt_setWidth_bit`). -/
theorem spike_of (r : Vec Ideal S256x1024 .i32) (v z n : Vec Ideal S256x1024 .f32) (y : S256x1024.Idx) :
    k0_pay6 (F := Ideal) r z (k0_pay2 v) n y = spike (r y) (potential (v y) (z y) (n y)) := by
  show Scalar.select (IntOp.cmpi .sgt (r y) 0#32) (lit 0x00000000#32)
      ((((Ideal.cmp .ogt (Ideal.div (lit 0x00000000#32 - (lit 0xC249999A#32 - k0_pay4 (F := Ideal) z (k0_pay2 v) n y))
        (lit 0x41A1999A#32)) (lit 0x00000000#32)).setWidth 32).toInt : ℝ) : EReal) = _
  rw [zero_sub_eq_neg, toInt_setWidth_bit, potential_of]
  rfl

/-- The stored counter at an entry. -/
theorem refractory_of (r : Vec Ideal S256x1024 .i32) (v z n : Vec Ideal S256x1024 .f32) (y : S256x1024.Idx) :
    k0_pay1 5#32 (k0_pay7 (F := Ideal) r z (k0_pay2 v) n) y = refractory (r y) (spike (r y) (potential (v y) (z y) (n y))) := by
  rw [← spike_of]
  rfl

end Cert.KernelIdeal.Tile

end
-- ==== Proof.Layer.lean ====
import proofs.«125204_j80693845557792_1_alg».proof.Proof.Gen.KernelIdeal.Value
import proofs.«125204_j80693845557792_1_alg».proof.Proof.Tile
import Idealize.ShloMosaic.Lib.Pipeline.Value
import Idealize.ShloMosaic.Lib.StableHlo.Run
import Idealize.ShloMosaic.Lib.Tactic

/-! # From tiles to arrays: the kernel's four result arrays are the layer's step

The grid has 32 points; point `t` works on rows `256 t … 256 t + 255` of every batch-shaped array and on the two
weight matrices whole. So an entry `y` of a tile is the array's entry `(256 t + y 0, y 1)`, row `y 0` of the tile's
inputs is row `256 t + y 0` of the inputs, and the tile's synaptic current is the layer's at that entry: what
point `t` writes back is tile `t` of the layer's step (`Cert.Neuron.newV` …), and the 32 tiles fill the arrays.
The recurrent matrix the kernel is handed is the host's masked one, `noSelf` of the argument. -/

set_option maxRecDepth 16384

noncomputable section

open scoped BigOperators

namespace Cert.KernelIdeal.Layer

open Cert.KernelIdeal Cert.KernelIdeal.Gen Cert.Neuron Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, and a point's tiles, by their literal types -/

abbrev xs (c : Dev nD) : S8192x256.Idx → EReal := V m c main_arg0
abbrev vs (c : Dev nD) : S8192x1024.Idx → EReal := V m c main_arg1
abbrev rs (c : Dev nD) : S8192x1024.Idx → BitVec 32 := V m c main_arg2
abbrev ws (c : Dev nD) : S8192x1024.Idx → EReal := V m c main_arg3
abbrev zs (c : Dev nD) : S8192x1024.Idx → EReal := V m c main_arg4
abbrev wins (c : Dev nD) : S256x1024.Idx → EReal := V m c main_arg5
abbrev recs (c : Dev nD) : S1024x1024.Idx → EReal := V m c main_v5

abbrev xb (c : Dev nD) (t : Fin cfg0.N) : Vec Ideal S256x256 .f32 := iblk m c 0 t
abbrev vb (c : Dev nD) (t : Fin cfg0.N) : Vec Ideal S256x1024 .f32 := iblk m c 1 t
abbrev rb (c : Dev nD) (t : Fin cfg0.N) : Vec Ideal S256x1024 .i32 := iblk m c 2 t
abbrev wb (c : Dev nD) (t : Fin cfg0.N) : Vec Ideal S256x1024 .f32 := iblk m c 3 t
abbrev zb (c : Dev nD) (t : Fin cfg0.N) : Vec Ideal S256x1024 .f32 := iblk m c 4 t
abbrev winb (c : Dev nD) (t : Fin cfg0.N) : Vec Ideal S256x1024 .f32 := iblk m c 5 t
abbrev recb (c : Dev nD) (t : Fin cfg0.N) : Vec Ideal S1024x1024 .f32 := iblk m c 6 t

theorem xs_eq (c : Dev nD) : xs m c = m ((c : Thread nD τ).loc main_arg0) := V_main_arg0 m c
theorem vs_eq (c : Dev nD) : vs m c = m ((c : Thread nD τ).loc main_arg1) := V_main_arg1 m c
theorem rs_eq (c : Dev nD) : rs m c = m ((c : Thread nD τ).loc main_arg2) := V_main_arg2 m c
theorem ws_eq (c : Dev nD) : ws m c = m ((c : Thread nD τ).loc main_arg3) := V_main_arg3 m c
theorem zs_eq (c : Dev nD) : zs m c = m ((c : Thread nD τ).loc main_arg4) := V_main_arg4 m c
theorem wins_eq (c : Dev nD) : wins m c = m ((c : Thread nD τ).loc main_arg5) := V_main_arg5 m c

/-- The matrix the host hands the kernel as its recurrent weights: the argument with its diagonal zeroed. -/
theorem recs_eq (c : Dev nD) : recs m c = noSelf (m ((c : Thread nD τ).loc main_arg6)) := by
  show V m c main_v5 = _
  dsimp only [Gen.V]
  simp only [Gen.hostOps0, Gen.hostOps0_1, List.flatten_cons, List.flatten_nil, List.append_nil, List.cons_append,
    List.nil_append]
  after_results
  rfl

/-! ## Where each window's tile sits -/

/-- The printed index maps over the 32 points: a batch-shaped window's tile index is `(t, 0)`, a weight matrix's `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- An entry of the tile of v is the array's entry under the output tile's. -/
theorem vb_apply (c : Dev nD) (t : Fin cfg0.N) (y : S256x1024.Idx) :
    vb m c t y = vs m c (((cfg0.win 7).blk t).view.emb y) := by
  obtain ⟨i00, i01, i10, i11, i20, i21, i30, i31, i40, i41, i70, i71, i80, i81, i90, i91, i100, i101, i50, i51, i60, i61⟩ := idx_facts t
  show V m c main_arg1 (((cfg0.win 1).blk t).view.emb y) = V m c main_arg1 (((cfg0.win 7).blk t).view.emb y)
  refine congrArg _ (funext fun a => Fin.ext ?_)
  match a with
  | ⟨0, _⟩ => show win0_1.index t (0 : Fin 2) * 256 + 1 * (y 0).val = win0_7.index t (0 : Fin 2) * 256 + 1 * (y 0).val; omega
  | ⟨1, _⟩ => show win0_1.index t (1 : Fin 2) * 1024 + 1 * (y 1).val = win0_7.index t (1 : Fin 2) * 1024 + 1 * (y 1).val; omega

/-- An entry of the tile of r is the array's entry under the output tile's. -/
theorem rb_apply (c : Dev nD) (t : Fin cfg0.N) (y : S256x1024.Idx) :
    rb m c t y = rs m c (((cfg0.win 7).blk t).view.emb y) := by
  obtain ⟨i00, i01, i10, i11, i20, i21, i30, i31, i40, i41, i70, i71, i80, i81, i90, i91, i100, i101, i50, i51, i60, i61⟩ := idx_facts t
  show V m c main_arg2 (((cfg0.win 2).blk t).view.emb y) = V m c main_arg2 (((cfg0.win 7).blk t).view.emb y)
  refine congrArg _ (funext fun a => Fin.ext ?_)
  match a with
  | ⟨0, _⟩ => show win0_2.index t (0 : Fin 2) * 256 + 1 * (y 0).val = win0_7.index t (0 : Fin 2) * 256 + 1 * (y 0).val; omega
  | ⟨1, _⟩ => show win0_2.index t (1 : Fin 2) * 1024 + 1 * (y 1).val = win0_7.index t (1 : Fin 2) * 1024 + 1 * (y 1).val; omega

/-- An entry of the tile of w is the array's entry under the output tile's. -/
theorem wb_apply (c : Dev nD) (t : Fin cfg0.N) (y : S256x1024.Idx) :
    wb m c t y = ws m c (((cfg0.win 7).blk t).view.emb y) := by
  obtain ⟨i00, i01, i10, i11, i20, i21, i30, i31, i40, i41, i70, i71, i80, i81, i90, i91, i100, i101, i50, i51, i60, i61⟩ := idx_facts t
  show V m c main_arg3 (((cfg0.win 3).blk t).view.emb y) = V m c main_arg3 (((cfg0.win 7).blk t).view.emb y)
  refine congrArg _ (funext fun a => Fin.ext ?_)
  match a with
  | ⟨0, _⟩ => show win0_3.index t (0 : Fin 2) * 256 + 1 * (y 0).val = win0_7.index t (0 : Fin 2) * 256 + 1 * (y 0).val; omega
  | ⟨1, _⟩ => show win0_3.index t (1 : Fin 2) * 1024 + 1 * (y 1).val = win0_7.index t (1 : Fin 2) * 1024 + 1 * (y 1).val; omega

/-- An entry of the tile of z is the array's entry under the output tile's. -/
theorem zb_apply (c : Dev nD) (t : Fin cfg0.N) (y : S256x1024.Idx) :
    zb m c t y = zs m c (((cfg0.win 7).blk t).view.emb y) := by
  obtain ⟨i00, i01, i10, i11, i20, i21, i30, i31, i40, i41, i70, i71, i80, i81, i90, i91, i100, i101, i50, i51, i60, i61⟩ := idx_facts t
  show V m c main_arg4 (((cfg0.win 4).blk t).view.emb y) = V m c main_arg4 (((cfg0.win 7).blk t).view.emb y)
  refine congrArg _ (funext fun a => Fin.ext ?_)
  match a with
  | ⟨0, _⟩ => show win0_4.index t (0 : Fin 2) * 256 + 1 * (y 0).val = win0_7.index t (0 : Fin 2) * 256 + 1 * (y 0).val; omega
  | ⟨1, _⟩ => show win0_4.index t (1 : Fin 2) * 1024 + 1 * (y 1).val = win0_7.index t (1 : Fin 2) * 1024 + 1 * (y 1).val; omega

/-- Row `y 0` of the tile of inputs is row `256 t + y 0` of the inputs. -/
theorem xb_row (c : Dev nD) (t : Fin cfg0.N) (y : S256x1024.Idx) (k : Fin 256) :
    xb m c t (ix2 (y 0) k) = xs m c (ix2 ((((cfg0.win 7).blk t).view.emb y) 0) k) := by
  obtain ⟨i00, i01, i10, i11, i20, i21, i30, i31, i40, i41, i70, i71, i80, i81, i90, i91, i100, i101, i50, i51, i60, i61⟩ := idx_facts t
  show V m c main_arg0 (((cfg0.win 0).blk t).view.emb (ix2 (y 0) k)) = V m c main_arg0 (ix2 ((((cfg0.win 7).blk t).view.emb y) 0) k)
  refine congrArg _ (funext fun a => Fin.ext ?_)
  match a with
  | ⟨0, _⟩ => show win0_0.index t (0 : Fin 2) * 256 + 1 * (y 0).val = win0_7.index t (0 : Fin 2) * 256 + 1 * (y 0).val; omega
  | ⟨1, _⟩ => show win0_0.index t (1 : Fin 2) * 256 + 1 * k.val = k.val; omega

/-- Row `y 0` of the tile of previous spikes is row `256 t + y 0` of them. -/
theorem zb_row (c : Dev nD) (t : Fin cfg0.N) (y : S256x1024.Idx) (k : Fin 1024) :
    zb m c t (ix2 (y 0) k) = zs m c (ix2 ((((cfg0.win 7).blk t).view.emb y) 0) k) := by
  obtain ⟨i00, i01, i10, i11, i20, i21, i30, i31, i40, i41, i70, i71, i80, i81, i90, i91, i100, i101, i50, i51, i60, i61⟩ := idx_facts t
  show V m c main_arg4 (((cfg0.win 4).blk t).view.emb (ix2 (y 0) k)) = V m c main_arg4 (ix2 ((((cfg0.win 7).blk t).view.emb y) 0) k)
  refine congrArg _ (funext fun a => Fin.ext ?_)
  match a with
  | ⟨0, _⟩ => show win0_4.index t (0 : Fin 2) * 256 + 1 * (y 0).val = win0_7.index t (0 : Fin 2) * 256 + 1 * (y 0).val; omega
  | ⟨1, _⟩ => show win0_4.index t (1 : Fin 2) * 1024 + 1 * k.val = k.val; omega

/-- The input weights are staged whole: column `y 1` of the staged matrix is the matrix's. -/
theorem winb_col (c : Dev nD) (t : Fin cfg0.N) (y : S256x1024.Idx) (k : Fin 256) :
    winb m c t (ix2 k (y 1)) = wins m c (ix2 k ((((cfg0.win 7).blk t).view.emb y) 1)) := by
  obtain ⟨i00, i01, i10, i11, i20, i21, i30, i31, i40, i41, i70, i71, i80, i81, i90, i91, i100, i101, i50, i51, i60, i61⟩ := idx_facts t
  show V m c main_arg5 (((cfg0.win 5).blk t).view.emb (ix2 k (y 1))) = V m c main_arg5 (ix2 k ((((cfg0.win 7).blk t).view.emb y) 1))
  refine congrArg _ (funext fun a => Fin.ext ?_)
  match a with
  | ⟨0, _⟩ => show win0_5.index t (0 : Fin 2) * 256 + 1 * k.val = k.val; omega
  | ⟨1, _⟩ => show win0_5.index t (1 : Fin 2) * 1024 + 1 * (y 1).val = win0_7.index t (1 : Fin 2) * 1024 + 1 * (y 1).val; omega

/-- The recurrent weights are staged whole. -/
theorem recb_col (c : Dev nD) (t : Fin cfg0.N) (y : S256x1024.Idx) (k : Fin 1024) :
    recb m c t (ix2 k (y 1)) = recs m c (ix2 k ((((cfg0.win 7).blk t).view.emb y) 1)) := by
  obtain ⟨i00, i01, i10, i11, i20, i21, i30, i31, i40, i41, i70, i71, i80, i81, i90, i91, i100, i101, i50, i51, i60, i61⟩ := idx_facts t
  show V m c main_v5 (((cfg0.win 6).blk t).view.emb (ix2 k (y 1))) = V m c main_v5 (ix2 k ((((cfg0.win 7).blk t).view.emb y) 1))
  refine congrArg _ (funext fun a => Fin.ext ?_)
  match a with
  | ⟨0, _⟩ => show win0_6.index t (0 : Fin 2) * 1024 + 1 * k.val = k.val; omega
  | ⟨1, _⟩ => show win0_6.index t (1 : Fin 2) * 1024 + 1 * (y 1).val = win0_7.index t (1 : Fin 2) * 1024 + 1 * (y 1).val; omega

/-- So the tile's synaptic current at `y` is the layer's at the entry `y` stands for. -/
theorem current_apply (c : Dev nD) (t : Fin cfg0.N) (y : S256x1024.Idx) :
    Tile.current (xb m c t) (winb m c t) (zb m c t) (recb m c t) y
      = Neuron.current (xs m c) (wins m c) (zs m c) (recs m c) (((cfg0.win 7).blk t).view.emb y) := by
  unfold Tile.current Neuron.current
  refine congrArg₂ (· + ·) (Finset.sum_congr rfl fun k _ => ?_) (Finset.sum_congr rfl fun k _ => ?_)
  · exact congrArg₂ (· * ·) (xb_row m c t y k) (winb_col m c t y k)
  · exact congrArg₂ (· * ·) (zb_row m c t y k) (recb_col m c t y k)

/-- Output window 8's tile sits where the first output's does. -/
theorem emb8_eq (t : Fin cfg0.N) (y : S256x1024.Idx) :
    ((cfg0.win 8).blk t).view.emb y = ((cfg0.win 7).blk t).view.emb y := by
  obtain ⟨i00, i01, i10, i11, i20, i21, i30, i31, i40, i41, i70, i71, i80, i81, i90, i91, i100, i101, i50, i51, i60, i61⟩ := idx_facts t
  refine funext fun a => Fin.ext ?_
  match a with
  | ⟨0, _⟩ => show win0_8.index t (0 : Fin 2) * 256 + 1 * (y 0).val = win0_7.index t (0 : Fin 2) * 256 + 1 * (y 0).val; omega
  | ⟨1, _⟩ => show win0_8.index t (1 : Fin 2) * 1024 + 1 * (y 1).val = win0_7.index t (1 : Fin 2) * 1024 + 1 * (y 1).val; omega

/-- Output window 9's tile sits where the first output's does. -/
theorem emb9_eq (t : Fin cfg0.N) (y : S256x1024.Idx) :
    ((cfg0.win 9).blk t).view.emb y = ((cfg0.win 7).blk t).view.emb y := by
  obtain ⟨i00, i01, i10, i11, i20, i21, i30, i31, i40, i41, i70, i71, i80, i81, i90, i91, i100, i101, i50, i51, i60, i61⟩ := idx_facts t
  refine funext fun a => Fin.ext ?_
  match a with
  | ⟨0, _⟩ => show win0_9.index t (0 : Fin 2) * 256 + 1 * (y 0).val = win0_7.index t (0 : Fin 2) * 256 + 1 * (y 0).val; omega
  | ⟨1, _⟩ => show win0_9.index t (1 : Fin 2) * 1024 + 1 * (y 1).val = win0_7.index t (1 : Fin 2) * 1024 + 1 * (y 1).val; omega

/-- Output window 10's tile sits where the first output's does. -/
theorem emb10_eq (t : Fin cfg0.N) (y : S256x1024.Idx) :
    ((cfg0.win 10).blk t).view.emb y = ((cfg0.win 7).blk t).view.emb y := by
  obtain ⟨i00, i01, i10, i11, i20, i21, i30, i31, i40, i41, i70, i71, i80, i81, i90, i91, i100, i101, i50, i51, i60, i61⟩ := idx_facts t
  refine funext fun a => Fin.ext ?_
  match a with
  | ⟨0, _⟩ => show win0_10.index t (0 : Fin 2) * 256 + 1 * (y 0).val = win0_7.index t (0 : Fin 2) * 256 + 1 * (y 0).val; omega
  | ⟨1, _⟩ => show win0_10.index t (1 : Fin 2) * 1024 + 1 * (y 1).val = win0_7.index t (1 : Fin 2) * 1024 + 1 * (y 1).val; omega

/-! ## What each point writes back -/

/-- A tile whose every entry is `G` at the array entry it stands for is, written back, that tile of `G`. -/
theorem tile_of7 (t : Fin cfg0.N) (P : Vec Ideal S256x1024 .f32) (G : S8192x1024.Idx → EReal)
    (h : ∀ y : S256x1024.Idx, P y = G (((cfg0.win 7).blk t).view.emb y)) :
    (cfg0.win 7).cut (grid0.coords t) P = ((cfg0.win 7).blk t).view.read (Elt Ideal) G := funext fun y => h y
theorem tile_of8 (t : Fin cfg0.N) (P : Vec Ideal S256x1024 .f32) (G : S8192x1024.Idx → EReal)
    (h : ∀ y : S256x1024.Idx, P y = G (((cfg0.win 8).blk t).view.emb y)) :
    (cfg0.win 8).cut (grid0.coords t) P = ((cfg0.win 8).blk t).view.read (Elt Ideal) G := funext fun y => h y
theorem tile_of9 (t : Fin cfg0.N) (P : Vec Ideal S256x1024 .i32) (G : S8192x1024.Idx → BitVec 32)
    (h : ∀ y : S256x1024.Idx, P y = G (((cfg0.win 9).blk t).view.emb y)) :
    (cfg0.win 9).cut (grid0.coords t) P = ((cfg0.win 9).blk t).view.read (Elt Ideal) G := funext fun y => h y
theorem tile_of10 (t : Fin cfg0.N) (P : Vec Ideal S256x1024 .f32) (G : S8192x1024.Idx → EReal)
    (h : ∀ y : S256x1024.Idx, P y = G (((cfg0.win 10).blk t).view.emb y)) :
    (cfg0.win 10).cut (grid0.coords t) P = ((cfg0.win 10).blk t).view.read (Elt Ideal) G := funext fun y => h y

/-- The net current of a tile at `y`, by the arrays. -/
theorem net_apply (c : Dev nD) (t : Fin cfg0.N) (y : S256x1024.Idx) :
    k0_pay3 (F := Ideal) (xb m c t) (winb m c t) (zb m c t) (recb m c t) (wb m c t) y
      = Neuron.current (xs m c) (wins m c) (zs m c) (recs m c) (((cfg0.win 7).blk t).view.emb y)
        - ws m c (((cfg0.win 7).blk t).view.emb y) := by
  rw [Tile.net_apply (xb m c t) (winb m c t) (zb m c t) (recb m c t) (wb m c t) y, current_apply m c t y, wb_apply m c t y]

/-- Point `t` writes tile `t` of the new potentials. -/
theorem flushedV_eq (c : Dev nD) (t : Fin cfg0.N) :
    (dats m 0 c).flushed 7 t = ((cfg0.win 7).blk t).view.read (Elt Ideal)
      (newV (xs m c) (vs m c) (ws m c) (zs m c) (wins m c) (recs m c)) := by
  rw [Cert.KernelIdeal.Value.flushed7]
  unfold out0_7
  rw [View.canon_unit_zero hz]
  simp only [View.ld_unit_zero (S := S256x1024) hz, View.ld_unit_zero (S := S256x256) hz, View.ld_unit_zero (S := S1024x1024) hz]
  refine tile_of7 t _ _ fun y => ?_
  refine (Tile.potential_of (vb m c t) (zb m c t) (k0_pay3 (xb m c t) (winb m c t) (zb m c t) (recb m c t) (wb m c t)) y).trans ?_
  rw [net_apply m c t y, vb_apply m c t y, zb_apply m c t y]
  rfl

/-- Point `t` writes tile `t` of the new spikes. -/
theorem flushedZ_eq (c : Dev nD) (t : Fin cfg0.N) :
    (dats m 0 c).flushed 8 t = ((cfg0.win 8).blk t).view.read (Elt Ideal)
      (newZ (xs m c) (vs m c) (rs m c) (ws m c) (zs m c) (wins m c) (recs m c)) := by
  rw [Cert.KernelIdeal.Value.flushed8]
  unfold out0_8
  rw [View.canon_unit_zero hz]
  simp only [View.ld_unit_zero (S := S256x1024) hz, View.ld_unit_zero (S := S256x256) hz, View.ld_unit_zero (S := S1024x1024) hz]
  refine tile_of8 t _ _ fun y => ?_
  rw [emb8_eq t y]
  refine (Tile.spike_of (rb m c t) (vb m c t) (zb m c t) (k0_pay3 (xb m c t) (winb m c t) (zb m c t) (recb m c t) (wb m c t)) y).trans ?_
  rw [net_apply m c t y, vb_apply m c t y, zb_apply m c t y, rb_apply m c t y]
  rfl

/-- Point `t` writes tile `t` of the new refractory counters. -/
theorem flushedR_eq (c : Dev nD) (t : Fin cfg0.N) :
    (dats m 0 c).flushed 9 t = ((cfg0.win 9).blk t).view.read (Elt Ideal)
      (newR (xs m c) (vs m c) (rs m c) (ws m c) (zs m c) (wins m c) (recs m c)) := by
  rw [Cert.KernelIdeal.Value.flushed9]
  unfold out0_9
  rw [View.canon_unit_zero hz]
  simp only [View.ld_unit_zero (S := S256x1024) hz, View.ld_unit_zero (S := S256x256) hz, View.ld_unit_zero (S := S1024x1024) hz]
  refine tile_of9 t _ _ fun y => ?_
  rw [emb9_eq t y]
  refine (Tile.refractory_of (rb m c t) (vb m c t) (zb m c t) (k0_pay3 (xb m c t) (winb m c t) (zb m c t) (recb m c t) (wb m c t)) y).trans ?_
  rw [net_apply m c t y, vb_apply m c t y, zb_apply m c t y, rb_apply m c t y]
  rfl

/-- Point `t` writes tile `t` of the new adaptation currents. -/
theorem flushedW_eq (c : Dev nD) (t : Fin cfg0.N) :
    (dats m 0 c).flushed 10 t = ((cfg0.win 10).blk t).view.read (Elt Ideal) (newW (vs m c) (ws m c) (zs m c)) := by
  rw [Cert.KernelIdeal.Value.flushed10]
  unfold out0_10
  rw [View.canon_unit_zero hz]
  simp only [View.ld_unit_zero (S := S256x1024) hz]
  refine tile_of10 t _ _ fun y => ?_
  rw [emb10_eq t y]
  refine (Tile.adaptation_apply (vb m c t) (wb m c t) (zb m c t) y).trans ?_
  rw [vb_apply m c t y, zb_apply m c t y, wb_apply m c t y]
  rfl

/-! ## The tiles fill the arrays -/

theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_0).slice (win0_7.rect t)).set ↔ _
  rw [View.set_slice_whole, Rect.mem_set_unit]
  exact Iff.rfl

/-- Row `i 0` lies in the tile of rows `256 (i 0 / 256) …`, which is written back. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 32 := N_0
  have ht : (i 0).val / 256 < cfg0.N := by rw [hN]; omega
  obtain ⟨i00, i01, i10, i11, i20, i21, i30, i31, i40, i41, i70, i71, i80, i81, i90, i91, i100, i101, i50, i51, i60, i61⟩ := idx_facts ⟨(i 0).val / 256, ht⟩
  refine ⟨⟨(i 0).val / 256, ht⟩, flush0_7 _, ?_⟩
  rw [mem_blk7]
  intro a
  match a with
  | ⟨0, _⟩ =>
    show win0_7.index ⟨(i 0).val / 256, ht⟩ (0 : Fin 2) * 256 ≤ (i 0).val ∧ (i 0).val < win0_7.index ⟨(i 0).val / 256, ht⟩ (0 : Fin 2) * 256 + 256
    rw [i70]; show (i 0).val / 256 * 256 ≤ (i 0).val ∧ (i 0).val < (i 0).val / 256 * 256 + 256; omega
  | ⟨1, _⟩ =>
    show win0_7.index ⟨(i 0).val / 256, ht⟩ (1 : Fin 2) * 1024 ≤ (i 1).val ∧ (i 1).val < win0_7.index ⟨(i 0).val / 256, ht⟩ (1 : Fin 2) * 1024 + 1024
    rw [i71]; omega

theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v6_1).slice (win0_8.rect t)).set ↔ _
  rw [View.set_slice_whole, Rect.mem_set_unit]
  exact Iff.rfl

/-- Row `i 0` lies in the tile of rows `256 (i 0 / 256) …`, which is written back. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 32 := N_0
  have ht : (i 0).val / 256 < cfg0.N := by rw [hN]; omega
  obtain ⟨i00, i01, i10, i11, i20, i21, i30, i31, i40, i41, i70, i71, i80, i81, i90, i91, i100, i101, i50, i51, i60, i61⟩ := idx_facts ⟨(i 0).val / 256, ht⟩
  refine ⟨⟨(i 0).val / 256, ht⟩, flush0_8 _, ?_⟩
  rw [mem_blk8]
  intro a
  match a with
  | ⟨0, _⟩ =>
    show win0_8.index ⟨(i 0).val / 256, ht⟩ (0 : Fin 2) * 256 ≤ (i 0).val ∧ (i 0).val < win0_8.index ⟨(i 0).val / 256, ht⟩ (0 : Fin 2) * 256 + 256
    rw [i80]; show (i 0).val / 256 * 256 ≤ (i 0).val ∧ (i 0).val < (i 0).val / 256 * 256 + 256; omega
  | ⟨1, _⟩ =>
    show win0_8.index ⟨(i 0).val / 256, ht⟩ (1 : Fin 2) * 1024 ≤ (i 1).val ∧ (i 1).val < win0_8.index ⟨(i 0).val / 256, ht⟩ (1 : Fin 2) * 1024 + 1024
    rw [i81]; omega

theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v6_2).slice (win0_9.rect t)).set ↔ _
  rw [View.set_slice_whole, Rect.mem_set_unit]
  exact Iff.rfl

/-- Row `i 0` lies in the tile of rows `256 (i 0 / 256) …`, which is written back. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 32 := N_0
  have ht : (i 0).val / 256 < cfg0.N := by rw [hN]; omega
  obtain ⟨i00, i01, i10, i11, i20, i21, i30, i31, i40, i41, i70, i71, i80, i81, i90, i91, i100, i101, i50, i51, i60, i61⟩ := idx_facts ⟨(i 0).val / 256, ht⟩
  refine ⟨⟨(i 0).val / 256, ht⟩, flush0_9 _, ?_⟩
  rw [mem_blk9]
  intro a
  match a with
  | ⟨0, _⟩ =>
    show win0_9.index ⟨(i 0).val / 256, ht⟩ (0 : Fin 2) * 256 ≤ (i 0).val ∧ (i 0).val < win0_9.index ⟨(i 0).val / 256, ht⟩ (0 : Fin 2) * 256 + 256
    rw [i90]; show (i 0).val / 256 * 256 ≤ (i 0).val ∧ (i 0).val < (i 0).val / 256 * 256 + 256; omega
  | ⟨1, _⟩ =>
    show win0_9.index ⟨(i 0).val / 256, ht⟩ (1 : Fin 2) * 1024 ≤ (i 1).val ∧ (i 1).val < win0_9.index ⟨(i 0).val / 256, ht⟩ (1 : Fin 2) * 1024 + 1024
    rw [i91]; omega

theorem mem_blk10 (t : Fin cfg0.N) (i : S8192x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v6_3).slice (win0_10.rect t)).set ↔ _
  rw [View.set_slice_whole, Rect.mem_set_unit]
  exact Iff.rfl

/-- Row `i 0` lies in the tile of rows `256 (i 0 / 256) …`, which is written back. -/
theorem cover10 (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  have hN : cfg0.N = 32 := N_0
  have ht : (i 0).val / 256 < cfg0.N := by rw [hN]; omega
  obtain ⟨i00, i01, i10, i11, i20, i21, i30, i31, i40, i41, i70, i71, i80, i81, i90, i91, i100, i101, i50, i51, i60, i61⟩ := idx_facts ⟨(i 0).val / 256, ht⟩
  refine ⟨⟨(i 0).val / 256, ht⟩, flush0_10 _, ?_⟩
  rw [mem_blk10]
  intro a
  match a with
  | ⟨0, _⟩ =>
    show win0_10.index ⟨(i 0).val / 256, ht⟩ (0 : Fin 2) * 256 ≤ (i 0).val ∧ (i 0).val < win0_10.index ⟨(i 0).val / 256, ht⟩ (0 : Fin 2) * 256 + 256
    rw [i100]; show (i 0).val / 256 * 256 ≤ (i 0).val ∧ (i 0).val < (i 0).val / 256 * 256 + 256; omega
  | ⟨1, _⟩ =>
    show win0_10.index ⟨(i 0).val / 256, ht⟩ (1 : Fin 2) * 1024 ≤ (i 1).val ∧ (i 1).val < win0_10.index ⟨(i 0).val / 256, ht⟩ (1 : Fin 2) * 1024 + 1024
    rw [i101]; omega

/-! ## The four arrays after the run -/

theorem finalV (c : Dev nD) : (dats m 0 c).arrAt 7 cfg0.N
    = newV (m ((c : Thread nD τ).loc main_arg0)) (m ((c : Thread nD τ).loc main_arg1)) (m ((c : Thread nD τ).loc main_arg3))
        (m ((c : Thread nD τ).loc main_arg4)) (m ((c : Thread nD τ).loc main_arg5)) (noSelf (m ((c : Thread nD τ).loc main_arg6))) := by
  rw [(dats m 0 c).arrAt_eq_of_cover 7 _ (fun t _ => flushedV_eq m c t) cover7, xs_eq, vs_eq, ws_eq, zs_eq, wins_eq, recs_eq]

theorem finalZ (c : Dev nD) : (dats m 0 c).arrAt 8 cfg0.N
    = newZ (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (noSelf (m ((c : Thread nD τ).loc main_arg6))) := by
  rw [(dats m 0 c).arrAt_eq_of_cover 8 _ (fun t _ => flushedZ_eq m c t) cover8, xs_eq, vs_eq, rs_eq, ws_eq, zs_eq, wins_eq, recs_eq]

theorem finalR (c : Dev nD) : (dats m 0 c).arrAt 9 cfg0.N
    = newR (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (noSelf (m ((c : Thread nD τ).loc main_arg6))) := by
  rw [(dats m 0 c).arrAt_eq_of_cover 9 _ (fun t _ => flushedR_eq m c t) cover9, xs_eq, vs_eq, rs_eq, ws_eq, zs_eq, wins_eq, recs_eq]

theorem finalW (c : Dev nD) : (dats m 0 c).arrAt 10 cfg0.N
    = newW (m ((c : Thread nD τ).loc main_arg1)) (m ((c : Thread nD τ).loc main_arg3)) (m ((c : Thread nD τ).loc main_arg4)) := by
  rw [(dats m 0 c).arrAt_eq_of_cover 10 _ (fun t _ => flushedW_eq m c t) cover10, vs_eq, ws_eq, zs_eq]

/-- The kernel's run with its four result arrays named: the layer's step of the arguments. -/
theorem run : θ_run defs (onTc (τ := τ) (main (F := Ideal))) ⟨m, fun _ => 0, ρ⟩ fun r => ∀ c : Dev nD,
      r.2.mem ((c : Thread nD τ).loc main_v6_0) = newV (m ((c : Thread nD τ).loc main_arg0)) (m ((c : Thread nD τ).loc main_arg1)) (m ((c : Thread nD τ).loc main_arg3))
        (m ((c : Thread nD τ).loc main_arg4)) (m ((c : Thread nD τ).loc main_arg5)) (noSelf (m ((c : Thread nD τ).loc main_arg6)))
      ∧ r.2.mem ((c : Thread nD τ).loc main_v6_1) = newZ (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (noSelf (m ((c : Thread nD τ).loc main_arg6)))
      ∧ r.2.mem ((c : Thread nD τ).loc main_v6_2) = newR (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (noSelf (m ((c : Thread nD τ).loc main_arg6)))
      ∧ r.2.mem ((c : Thread nD τ).loc main_v6_3) = newW (m ((c : Thread nD τ).loc main_arg1)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (finalV m c), (h c).2.1.trans (finalZ m c), (h c).2.2.1.trans (finalR m c),
      (h c).2.2.2.1.trans (finalW m c), (h c).2.2.2.2⟩)
    (Cert.KernelIdeal.Value.run_blocks m ρ)

end Cert.KernelIdeal.Layer

end
-- ==== Proof.RefValue.lean ====
import proofs.«125204_j80693845557792_1_alg».proof.Proof.RefRun
import proofs.«125204_j80693845557792_1_alg».proof.Proof.Spec
import proofs.«125204_j80693845557792_1_alg».proof.Proof.LibPlainDot

/-! # The reference's four results are the layer's step

The reference forms the whole batch at once: two host products added, then the entrywise chain. Read at an entry,
the products are the plain sums over the contracted axis, the masked recurrent matrix is `noSelf`, and the chain
is `Cert.Neuron`'s one-neuron functions (a host quotient, exponential and negation are the extended reals' own;
the crossing bit is converted unsigned, the spelling `spike` uses). -/

set_option maxRecDepth 8192

noncomputable section

open scoped BigOperators

namespace Cert.ReferenceIdeal.Neuron

open Cert.ReferenceIdeal Cert.ReferenceIdeal.Gen Cert.Neuron Idealize.ShloMosaic Idealize.ShloMosaic.ValueIdx

variable (x : FVec Ideal S8192x256 .f32) (v w z : FVec Ideal S8192x1024 .f32) (r : IVec S8192x1024 32)
  (win : FVec Ideal S256x1024 .f32) (wrec : FVec Ideal S1024x1024 .f32)

/-- The recurrent weights as the host masks them: the diagonal, found by comparing the two coordinate iotas, set to zero. -/
theorem mask_eq :
    select (cmpi .eq (addi (iotaInDim S1024x1024 32 0) (broadcastInDim S1024x1024 ![] bcast_S_S1024x1024 (constantI S_ 32 0#32))) (iotaInDim S1024x1024 32 1)) (broadcastInDim S1024x1024 ![] bcast_S_S1024x1024 (id (constant (F := Ideal) S_ .f32 0x00000000#32))) wrec = noSelf wrec := rfl

/-- The two host products added are the synaptic current. -/
theorem current_eq :
    addf (Host.dotGeneral dot_S8192x256_S256x1024_S8192x1024_1_0_0_1_n_n none x win) (Host.dotGeneral dot_S8192x1024_S1024x1024_S8192x1024_1_0_0_1_n_n none z (select (cmpi .eq (addi (iotaInDim S1024x1024 32 0) (broadcastInDim S1024x1024 ![] bcast_S_S1024x1024 (constantI S_ 32 0#32))) (iotaInDim S1024x1024 32 1)) (broadcastInDim S1024x1024 ![] bcast_S_S1024x1024 (id (constant (F := Ideal) S_ .f32 0x00000000#32))) wrec))
      = current x win z (noSelf wrec) := by
  rw [mask_eq]
  funext i
  show FloatOps.dotGeneral _ none _ x win i + FloatOps.dotGeneral _ none _ z (noSelf wrec) i = _
  rw [Cert.PlainDot.dotGeneral_apply dot_S8192x256_S256x1024_S8192x1024_1_0_0_1_n_n rfl,
    Cert.PlainDot.dotGeneral_apply dot_S8192x1024_S1024x1024_S8192x1024_1_0_0_1_n_n rfl]
  rfl

/-- The first result: the new potentials. -/
theorem potential_eq :
    select (cmpf (F := Ideal) .ogt z (broadcastInDim S8192x1024 ![] bcast_S_S8192x1024 (constant (F := Ideal) S_ .f32 0x3F000000#32))) (broadcastInDim S8192x1024 ![] bcast_S_S8192x1024 (id (constant (F := Ideal) S_ .f32 0xC28D3333#32))) (addf (addf (subf v (mulf (broadcastInDim S8192x1024 ![] bcast_S_S8192x1024 (constant (F := Ideal) S_ .f32 0x3DDAA5CF#32)) (subf v (broadcastInDim S8192x1024 ![] bcast_S_S8192x1024 (constant (F := Ideal) S_ .f32 0xC28D3333#32))))) (mulf (broadcastInDim S8192x1024 ![] bcast_S_S8192x1024 (constant (F := Ideal) S_ .f32 0x3E5AA5CF#32)) (minimumf (broadcastInDim S8192x1024 ![] bcast_S_S8192x1024 (id (constant (F := Ideal) S_ .f32 0x438C8000#32))) (maximumf (broadcastInDim S8192x1024 ![] bcast_S_S8192x1024 (id (constant (F := Ideal) S_ .f32 0xC9742400#32))) (Host.exp (Host.divf (subf v (broadcastInDim S8192x1024 ![] bcast_S_S8192x1024 (constant (F := Ideal) S_ .f32 0xC249999A#32))) (broadcastInDim S8192x1024 ![] bcast_S_S8192x1024 (constant (F := Ideal) S_ .f32 0x40000000#32)))))))) (Host.divf (mulf (subf (addf (Host.dotGeneral dot_S8192x256_S256x1024_S8192x1024_1_0_0_1_n_n none x win) (Host.dotGeneral dot_S8192x1024_S1024x1024_S8192x1024_1_0_0_1_n_n none z (select (cmpi .eq (addi (iotaInDim S1024x1024 32 0) (broadcastInDim S1024x1024 ![] bcast_S_S1024x1024 (constantI S_ 32 0#32))) (iotaInDim S1024x1024 32 1)) (broadcastInDim S1024x1024 ![] bcast_S_S1024x1024 (id (constant (F := Ideal) S_ .f32 0x00000000#32))) wrec))) w) (broadcastInDim S8192x1024 ![] bcast_S_S8192x1024 (constant (F := Ideal) S_ .f32 0x3F800000#32))) (broadcastInDim S8192x1024 ![] bcast_S_S8192x1024 (constant (F := Ideal) S_ .f32 0x438C8000#32))))
      = newV x v w z win (noSelf wrec) := by
  rw [current_eq]
  rfl

/-- The second result: the new spikes. -/
theorem spike_eq :
    select (cmpi .sgt r (broadcastInDim S8192x1024 ![] bcast_S_S8192x1024 (constantI S_ 32 0#32))) (broadcastInDim S8192x1024 ![] bcast_S_S8192x1024 (id (constant (F := Ideal) S_ .f32 0x00000000#32))) (uitofp (F := Ideal) .f32 (cmpf (F := Ideal) .ogt (Host.divf (Host.negf (subf (broadcastInDim S8192x1024 ![] bcast_S_S8192x1024 (constant (F := Ideal) S_ .f32 0xC249999A#32)) (select (cmpf (F := Ideal) .ogt z (broadcastInDim S8192x1024 ![] bcast_S_S8192x1024 (constant (F := Ideal) S_ .f32 0x3F000000#32))) (broadcastInDim S8192x1024 ![] bcast_S_S8192x1024 (id (constant (F := Ideal) S_ .f32 0xC28D3333#32))) (addf (addf (subf v (mulf (broadcastInDim S8192x1024 ![] bcast_S_S8192x1024 (constant (F := Ideal) S_ .f32 0x3DDAA5CF#32)) (subf v (broadcastInDim S8192x1024 ![] bcast_S_S8192x1024 (constant (F := Ideal) S_ .f32 0xC28D3333#32))))) (mulf (broadcastInDim S8192x1024 ![] bcast_S_S8192x1024 (constant (F := Ideal) S_ .f32 0x3E5AA5CF#32)) (minimumf (broadcastInDim S8192x1024 ![] bcast_S_S8192x1024 (id (constant (F := Ideal) S_ .f32 0x438C8000#32))) (maximumf (broadcastInDim S8192x1024 ![] bcast_S_S8192x1024 (id (constant (F := Ideal) S_ .f32 0xC9742400#32))) (Host.exp (Host.divf (subf v (broadcastInDim S8192x1024 ![] bcast_S_S8192x1024 (constant (F := Ideal) S_ .f32 0xC249999A#32))) (broadcastInDim S8192x1024 ![] bcast_S_S8192x1024 (constant (F := Ideal) S_ .f32 0x40000000#32)))))))) (Host.divf (mulf (subf (addf (Host.dotGeneral dot_S8192x256_S256x1024_S8192x1024_1_0_0_1_n_n none x win) (Host.dotGeneral dot_S8192x1024_S1024x1024_S8192x1024_1_0_0_1_n_n none z (select (cmpi .eq (addi (iotaInDim S1024x1024 32 0) (broadcastInDim S1024x1024 ![] bcast_S_S1024x1024 (constantI S_ 32 0#32))) (iotaInDim S1024x1024 32 1)) (broadcastInDim S1024x1024 ![] bcast_S_S1024x1024 (id (constant (F := Ideal) S_ .f32 0x00000000#32))) wrec))) w) (broadcastInDim S8192x1024 ![] bcast_S_S8192x1024 (constant (F := Ideal) S_ .f32 0x3F800000#32))) (broadcastInDim S8192x1024 ![] bcast_S_S8192x1024 (constant (F := Ideal) S_ .f32 0x438C8000#32))))))) (broadcastInDim S8192x1024 ![] bcast_S_S8192x1024 (constant (F := Ideal) S_ .f32 0x41A1999A#32))) (broadcastInDim S8192x1024 ![] bcast_S_S8192x1024 (constant (F := Ideal) S_ .f32 0x00000000#32))))
      = newZ x v r w z win (noSelf wrec) := by
  rw [current_eq]
  rfl

/-- The third result: the new refractory counters. -/
theorem refractory_eq :
    minsi (broadcastInDim S8192x1024 ![] bcast_S_S8192x1024 (id (constantI S_ 32 5#32))) (maxsi (broadcastInDim S8192x1024 ![] bcast_S_S8192x1024 (id (constantI S_ 32 0#32))) (addi (subi r (broadcastInDim S8192x1024 ![] bcast_S_S8192x1024 (constantI S_ 32 1#32))) (fptosi 32 (mulf (select (cmpi .sgt r (broadcastInDim S8192x1024 ![] bcast_S_S8192x1024 (constantI S_ 32 0#32))) (broadcastInDim S8192x1024 ![] bcast_S_S8192x1024 (id (constant (F := Ideal) S_ .f32 0x00000000#32))) (uitofp (F := Ideal) .f32 (cmpf (F := Ideal) .ogt (Host.divf (Host.negf (subf (broadcastInDim S8192x1024 ![] bcast_S_S8192x1024 (constant (F := Ideal) S_ .f32 0xC249999A#32)) (select (cmpf (F := Ideal) .ogt z (broadcastInDim S8192x1024 ![] bcast_S_S8192x1024 (constant (F := Ideal) S_ .f32 0x3F000000#32))) (broadcastInDim S8192x1024 ![] bcast_S_S8192x1024 (id (constant (F := Ideal) S_ .f32 0xC28D3333#32))) (addf (addf (subf v (mulf (broadcastInDim S8192x1024 ![] bcast_S_S8192x1024 (constant (F := Ideal) S_ .f32 0x3DDAA5CF#32)) (subf v (broadcastInDim S8192x1024 ![] bcast_S_S8192x1024 (constant (F := Ideal) S_ .f32 0xC28D3333#32))))) (mulf (broadcastInDim S8192x1024 ![] bcast_S_S8192x1024 (constant (F := Ideal) S_ .f32 0x3E5AA5CF#32)) (minimumf (broadcastInDim S8192x1024 ![] bcast_S_S8192x1024 (id (constant (F := Ideal) S_ .f32 0x438C8000#32))) (maximumf (broadcastInDim S8192x1024 ![] bcast_S_S8192x1024 (id (constant (F := Ideal) S_ .f32 0xC9742400#32))) (Host.exp (Host.divf (subf v (broadcastInDim S8192x1024 ![] bcast_S_S8192x1024 (constant (F := Ideal) S_ .f32 0xC249999A#32))) (broadcastInDim S8192x1024 ![] bcast_S_S8192x1024 (constant (F := Ideal) S_ .f32 0x40000000#32)))))))) (Host.divf (mulf (subf (addf (Host.dotGeneral dot_S8192x256_S256x1024_S8192x1024_1_0_0_1_n_n none x win) (Host.dotGeneral dot_S8192x1024_S1024x1024_S8192x1024_1_0_0_1_n_n none z (select (cmpi .eq (addi (iotaInDim S1024x1024 32 0) (broadcastInDim S1024x1024 ![] bcast_S_S1024x1024 (constantI S_ 32 0#32))) (iotaInDim S1024x1024 32 1)) (broadcastInDim S1024x1024 ![] bcast_S_S1024x1024 (id (constant (F := Ideal) S_ .f32 0x00000000#32))) wrec))) w) (broadcastInDim S8192x1024 ![] bcast_S_S8192x1024 (constant (F := Ideal) S_ .f32 0x3F800000#32))) (broadcastInDim S8192x1024 ![] bcast_S_S8192x1024 (constant (F := Ideal) S_ .f32 0x438C8000#32))))))) (broadcastInDim S8192x1024 ![] bcast_S_S8192x1024 (constant (F := Ideal) S_ .f32 0x41A1999A#32))) (broadcastInDim S8192x1024 ![] bcast_S_S8192x1024 (constant (F := Ideal) S_ .f32 0x00000000#32))))) (broadcastInDim S8192x1024 ![] bcast_S_S8192x1024 (constant (F := Ideal) S_ .f32 0x40A00000#32))))))
      = newR x v r w z win (noSelf wrec) := by
  rw [current_eq]
  rfl

/-- The fourth result: the new adaptation currents. -/
theorem adaptation_eq :
    addf (addf (subf w (mulf (broadcastInDim S8192x1024 ![] bcast_S_S8192x1024 (constant (F := Ideal) S_ .f32 0x3BE38E39#32)) w)) (mulf (broadcastInDim S8192x1024 ![] bcast_S_S8192x1024 (constant (F := Ideal) S_ .f32 0x3CE38E39#32)) (subf v (broadcastInDim S8192x1024 ![] bcast_S_S8192x1024 (constant (F := Ideal) S_ .f32 0xC28D3333#32))))) (mulf (broadcastInDim S8192x1024 ![] bcast_S_S8192x1024 (constant (F := Ideal) S_ .f32 0x3DA4DD2F#32)) z)
      = newW v w z := rfl

end Cert.ReferenceIdeal.Neuron

end
-- ==== Proof.lean ====
/- One step of an adaptive exponential integrate-and-fire layer: a kernel that tiles the batch of 8192 rows into 32
   tiles of 256 rows, against the whole-batch reference.

   Both programs compute, for every row and neuron, the same four values: the synaptic current (the row's 256 inputs
   through the input weights plus the row's 1024 previous spikes through the recurrent weights with a zeroed diagonal),
   then the new potential, spike, refractory counter and adaptation current, each a function of that one neuron's
   state and current (`Proof/Spec.lean`). The kernel's products contract the whole axis inside each tile, so nothing is
   re-associated between the two programs: on the extended reals the kernel's matrix products into a zero accumulator
   and the reference's host products are the same plain sums, the change to bf16 before the kernel's products is the
   identity, the kernel's `0 - x` is the reference's `-x`, and the crossing bit converted through a signed 32-bit
   word is the bit converted unsigned. No law that needs finiteness is used, so the precondition is never opened.

   `Proof/Tile.lean` reads the kernel body's stored values at an entry of a tile; `Proof/Layer.lean` places the tiles in
   the arrays and names the four result arrays after the kernel's run; `Proof/RefValue.lean` reads the reference's four
   results as the same functions; here the claims are assembled. The two kernel frames are the generated ones, the
   reference's frame is its run with the results dropped, and the idealization rewrote nothing. -/
import proofs.«125204_j80693845557792_1_alg».proof.Defs
import proofs.«125204_j80693845557792_1_alg».proof.Proof.Gen.Kernel
import proofs.«125204_j80693845557792_1_alg».proof.Proof.Gen.Kernel.Skeleton
import proofs.«125204_j80693845557792_1_alg».proof.Proof.Gen.Kernel.Launch
import proofs.«125204_j80693845557792_1_alg».proof.Proof.Gen.Kernel.Points
import proofs.«125204_j80693845557792_1_alg».proof.Proof.Gen.Kernel.Frame
import proofs.«125204_j80693845557792_1_alg».proof.Proof.Gen.KernelIdeal
import proofs.«125204_j80693845557792_1_alg».proof.Proof.Gen.KernelIdeal.Skeleton
import proofs.«125204_j80693845557792_1_alg».proof.Proof.Gen.KernelIdeal.Launch
import proofs.«125204_j80693845557792_1_alg».proof.Proof.Gen.KernelIdeal.Points
import proofs.«125204_j80693845557792_1_alg».proof.Proof.Gen.KernelIdeal.Frame
import proofs.«125204_j80693845557792_1_alg».proof.Proof.Gen.ReferenceIdeal
import proofs.«125204_j80693845557792_1_alg».proof.Proof.Gen.Pre_finite_inputs
import proofs.«125204_j80693845557792_1_alg».proof.Proof.Gen.KernelIdeal.Value
import proofs.«125204_j80693845557792_1_alg».proof.Proof.RefRun
import proofs.«125204_j80693845557792_1_alg».proof.Proof.Layer
import proofs.«125204_j80693845557792_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments as they were. -/
theorem frame_reference : Cert.frame_ReferenceIdeal := fun m ρ _ =>
  (θ_run Cert.ReferenceIdeal.defs _ _).mono (fun _ h c => (h c).2.2.2.2) (Cert.ReferenceIdeal.ValueP.run (F := Ideal) m ρ)

/-- Both programs end with the layer's step of their arguments in their four result arrays; the arguments agree. -/
theorem algebraic : Cert.algebraic_KernelIdeal_ReferenceIdeal := by
  intro m ρ m' ρ' _ hagree
  refine ⟨_, _, _, _, Cert.KernelIdeal.Layer.run m ρ, ?_⟩
  refine (θ_run Cert.ReferenceIdeal.defs _ _).mono (fun _ h c => ?_) (Cert.ReferenceIdeal.ValueP.run (F := Ideal) m' ρ')
  obtain ⟨a0, a1, a2, a3, a4, a5, a6⟩ := hagree c
  refine ⟨(h c).1.trans ?_, (h c).2.1.trans ?_, (h c).2.2.1.trans ?_, (h c).2.2.2.1.trans ?_, (h c).2.2.2.2⟩
  · rw [a0, a1, a3, a4, a5, a6]
    exact Cert.ReferenceIdeal.Neuron.potential_eq _ _ _ _ _ _
  · rw [a0, a1, a2, a3, a4, a5, a6]
    exact Cert.ReferenceIdeal.Neuron.spike_eq _ _ _ _ _ _ _
  · rw [a0, a1, a2, a3, a4, a5, a6]
    exact Cert.ReferenceIdeal.Neuron.refractory_eq _ _ _ _ _ _ _
  · rw [a1, a3, a4]
    exact Cert.ReferenceIdeal.Neuron.adaptation_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
